-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S33554432 : Shape := ⟨1, ![33554432]⟩
abbrev S_ : Shape := ⟨0, ![]⟩

class Facts : Prop where

variable [Facts]

def fn {F : FTy → Type} [FloatOps F] (main_arg0 : IVec S33554432 32) : IVec S_ 1 :=
  let main_c : IVec S_ 1 := constantI S_ 1 1#1
  main_c
-- ==== Kernel.lean ====
abbrev S33554432 : Shape := ⟨1, ![33554432]⟩
abbrev S262144x128 : Shape := ⟨2, ![262144, 128]⟩
abbrev S2x8x128 : Shape := ⟨3, ![2, 8, 128]⟩
abbrev S512x128 : Shape := ⟨2, ![512, 128]⟩
abbrev S1x8x128 : Shape := ⟨3, ![1, 8, 128]⟩
abbrev S512x128x8 : Shape := ⟨3, ![512, 128, 8]⟩
abbrev S512x128x128 : Shape := ⟨3, ![512, 128, 128]⟩
abbrev S512x128x1 : Shape := ⟨3, ![512, 128, 1]⟩
abbrev S65536x8 : Shape := ⟨2, ![65536, 8]⟩
abbrev S65536x128 : Shape := ⟨2, ![65536, 128]⟩
abbrev S8x128 : Shape := ⟨2, ![8, 128]⟩
abbrev S_ : Shape := ⟨0, ![]⟩
abbrev S1024 : Shape := ⟨1, ![1024]⟩
abbrev S600 : Shape := ⟨1, ![600]⟩

abbrev nBuf : Space → Nat
  | .hbm => 7
  | .vmem => 4
  | .smem => 0
  | _ => 0

abbrev bufTy : (tb : Table) → Fin (tcTables nBuf tb) → BufTy
  | .hbm, ⟨0, _⟩ => ⟨S33554432, .i32⟩
  | .hbm, ⟨1, _⟩ => ⟨S262144x128, .i32⟩
  | .hbm, ⟨2, _⟩ => ⟨S2x8x128, .i32⟩
  | .hbm, ⟨3, _⟩ => ⟨S_, .i32⟩
  | .hbm, ⟨4, _⟩ => ⟨S8x128, .i32⟩
  | .hbm, ⟨5, _⟩ => ⟨S1024, .i32⟩
  | .hbm, ⟨6, _⟩ => ⟨S600, .i32⟩
  | .local _ .vmem, ⟨0, _⟩ => ⟨S512x128, .i32⟩
  | .local _ .vmem, ⟨1, _⟩ => ⟨S512x128, .i32⟩
  | .local _ .vmem, ⟨2, _⟩ => ⟨S1x8x128, .i32⟩
  | .local _ .vmem, ⟨3, _⟩ => ⟨S1x8x128, .i32⟩
  | _, _ => ⟨S33554432, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S33554432_S262144x128 : S33554432.ShapeCasts S262144x128
  inb_S1x8x128_S1x8x128_0_0_0 : ∀ a, (![0, 0, 0] : Fin 3 → Nat) a + S1x8x128.size a ≤ S1x8x128.size a
  h_S1x8x128 : 0 < S1x8x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S512x128x8_d2_w32 : S512x128x8.Iotas .tc 32 [2]
  iota_S512x128x128_d2_w32 : S512x128x128.Iotas .tc 32 [2]
  shapeCasts_S512x128_S512x128x1 : S512x128.ShapeCasts S512x128x1
  broadcasts_S512x128x1_S512x128x8 : S512x128x1.Broadcasts S512x128x8
  natLt_1_32 : 1 < 32
  bitsLt_bf16_f32 : FTy.bits .bf16 < FTy.bits .f32
  broadcasts_S512x128x1_S512x128x128 : S512x128x1.Broadcasts S512x128x128
  shapeCasts_S512x128x8_S65536x8 : S512x128x8.ShapeCasts S65536x8
  shapeCasts_S512x128x128_S65536x128 : S512x128x128.ShapeCasts S65536x128
  shapeCasts_S1x8x128_S1x8x128 : S1x8x128.ShapeCasts S1x8x128
  shapeCasts_S8x128_S1x8x128 : S8x128.ShapeCasts S1x8x128
  reducesTo_S2x8x128_S8x128_d0 : S2x8x128.ReducesTo [0] S8x128
  h_S_ : 0 < S_.numel
  shapeCasts_S8x128_S1024 : S8x128.ShapeCasts S1024
  slices_S1024_S600_0 : S1024.Slices ![0] S600
  dot_S65536x8_S65536x128_S8x128_0_0_1_1_n_n_wf : DotDims.WF S65536x8 S65536x128 S8x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S262144x128.size a
  hwx0_0 : ∀ i : grid0.Coords, EltTy.bits .i32 = 32 ∨ (Rect.block (s := S262144x128) S512x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .i32 = 32 ∨ (Rect.block (s := S2x8x128) S1x8x128.size (cc0_transform_1 i) (hinb0_1 i)).WholeWords (EltTy.packing .i32)

variable [Facts₀]

def dot_S65536x8_S65536x128_S8x128_0_0_1_1_n_n : DotDims S65536x8 S65536x128 S8x128 where
  lhsContracting := [0]
  rhsContracting := [0]
  lhsNonContracting := [1]
  rhsNonContracting := [1]
  lhsBatch := []
  rhsBatch := []
  wf := dot_S65536x8_S65536x128_S8x128_0_0_1_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩
abbrev S600 : Shape := ⟨1, ![600]⟩
abbrev S33554432x1 : Shape := ⟨2, ![33554432, 1]⟩

abbrev nBuf : Space → Nat
  | .hbm => 7
  | .vmem => 0
  | .smem => 0
  | _ => 0

abbrev bufTy : (tb : Table) → Fin (tcTables nBuf tb) → BufTy
  | .hbm, ⟨0, _⟩ => ⟨S33554432, .i32⟩
  | .hbm, ⟨1, _⟩ => ⟨S_, .i32⟩
  | .hbm, ⟨2, _⟩ => ⟨S33554432, .i32⟩
  | .hbm, ⟨3, _⟩ => ⟨S_, .i32⟩
  | .hbm, ⟨4, _⟩ => ⟨S600, .i32⟩
  | .hbm, ⟨5, _⟩ => ⟨S33554432x1, .i32⟩
  | .hbm, ⟨6, _⟩ => ⟨S600, .i32⟩
  | _, _ => ⟨S33554432, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S600 : S_.BroadcastsInDim S600 (![] : Fin 0 → Fin S600.rank)
  bcast_S33554432_S33554432x1_0 : S33554432.BroadcastsInDim S33554432x1 (![0] : Fin 1 → Fin S33554432x1.rank)
  scatter_S600_S33554432x1_S33554432_n_0_0_1_wf : ScatterDims.WF S600 S33554432x1 S33554432 [] [0] [0] 1

variable [Facts₀]

def scatter_S600_S33554432x1_S33554432_n_0_0_1 : ScatterDims S600 S33554432x1 S33554432 where
  updateWindowDims := []
  insertedWindowDims := [0]
  scatterDimsToOperandDims := [0]
  indexVectorDim := 1
  wf := scatter_S600_S33554432x1_S33554432_n_0_0_1_wf

class Facts : Prop extends Facts₀ where

variable [Facts]
-- ==== Proof.Spec.lean ====
/-
  The specification both programs are compared with.

  The input is a vector `x` of 2^25 32-bit words. For a bin number `b < 600` the result is the number of
  positions `n` with `x n = b`, as a 32-bit word (sums of words wrap, and no sum here can: there are 2^25
  positions). A word that is negative as a signed integer, or 600 or more, is counted in no bin.

  `hit v b` is the indicator "the word `v` is the number `b`" as a word; `hist` sums it over all positions;
  `tileHist` sums it over one 512 × 128 tile, for the bin `128 * hi + lo`; `tile x s` is the `s`-th tile of `x`
  laid out row-major as 262144 rows of 128: row `r`, lane `l` of tile `s` is position `(512 * s + r) * 128 + l`.
-/
import Mathlib.Data.BitVec
import Mathlib.Algebra.BigOperators.Fin
import Idealize.ShloMosaic.Lib.ValueIdx

noncomputable section

namespace Cert.Hist

open Idealize.ShloMosaic Idealize.ShloMosaic.ValueIdx

/-- The indicator of "the word `v` is the number `b`", as a word. -/
def hit (v : BitVec 32) (b : ℕ) : BitVec 32 := if v = BitVec.ofNat 32 b then 1 else 0

/-- The histogram of `x` over the bins `0 … 599`. -/
def hist (x : (⟨1, ![33554432]⟩ : Shape).Idx → BitVec 32) : (⟨1, ![600]⟩ : Shape).Idx → BitVec 32 :=
  fun b => ∑ n : Fin 33554432, hit (x (ix1 n)) (b 0).val

/-- The count of the bin `128 * hi + lo` within one tile. -/
def tileHist (X : (⟨2, ![512, 128]⟩ : Shape).Idx → BitVec 32) (hi : Fin 8) (lo : Fin 128) : BitVec 32 :=
  ∑ r : Fin 512, ∑ l : Fin 128, hit (X (ix2 r l)) (128 * hi.val + lo.val)

/-- Position of row `r`, lane `l` of tile `s`. -/
def tilePos (s : Fin 512) (r : Fin 512) (l : Fin 128) : Fin 33554432 :=
  ⟨(512 * s.val + r.val) * 128 + l.val, by have := s.isLt; have := r.isLt; have := l.isLt; omega⟩

/-- Tile `s` of `x`. -/
def tile (x : (⟨1, ![33554432]⟩ : Shape).Idx → BitVec 32) (s : Fin 512) : (⟨2, ![512, 128]⟩ : Shape).Idx → BitVec 32 :=
  fun y => x (ix1 (tilePos s (y 0) (y 1)))

/-- The count of bin `128 * hi + lo` in tile number `s`, zero when there is no such tile. -/
def tileAt (x : (⟨1, ![33554432]⟩ : Shape).Idx → BitVec 32) (s : ℕ) (hi : Fin 8) (lo : Fin 128) : BitVec 32 :=
  if h : s < 512 then tileHist (tile x ⟨s, h⟩) hi lo else 0

/-- The count of bin `128 * hi + lo` over the 256 tiles of half `p` of the input. -/
def partHist (x : (⟨1, ![33554432]⟩ : Shape).Idx → BitVec 32) (p : ℕ) (hi : Fin 8) (lo : Fin 128) : BitVec 32 :=
  ∑ s ∈ Finset.Icc (256 * p) (256 * p + 255), tileAt x s hi lo

theorem tile_apply (x : (⟨1, ![33554432]⟩ : Shape).Idx → BitVec 32) (s : Fin 512) (r : Fin 512) (l : Fin 128) :
    tile x s (ix2 r l) = x (ix1 (tilePos s r l)) := rfl

end Cert.Hist

end
-- ==== Proof.Tile.lean ====
/-
  One tile's contribution, read at a bin.

  The body turns a 512 × 128 tile `X` of words into two one-hot matrices over the 65536 tile positions — rows
  `[X >> 7 = hi]` for `hi < 8` and `[X & 127 = lo]` for `lo < 128` —, multiplies the first, transposed, with the
  second, converts the real product to a word and adds it to the running block. Entry `(hi, lo)` of the product
  is the number of positions whose word has high part `hi` and low part `lo`, that is, whose word is
  `128 * hi + lo`: the tile's count of that bin.

  The steps: a word is `128 * hi + lo` exactly when its shift is `hi` and its low bits are `lo` (`word_split`); a real
  sum of zero-one indicators over fewer than 2^31 indices, converted to a word, is the word sum of the indicators
  (`fptosi_sum_indicator`); the product into the zero block at `(hi, lo)` is the sum over the 65536 positions of the
  operands' products (`matmul_at`); each operand at position `128 * r + l` is the indicator of its comparison at row `r`,
  lane `l` (`onehot_at`); and the positions are the pairs (row, lane) (`posEquiv`), which turns the one sum into the
  double sum of the specification (`count_of_onehot`).
-/
import proofs.«400439_j38474317038177_2_alg».proof.Proof.Gen.KernelIdeal.Skeleton
import proofs.«400439_j38474317038177_2_alg».proof.Proof.Spec
import Idealize.ShloMosaic.PureOps.Ideal.Laws
import Idealize.ShloMosaic.Lib.Pipeline.Value

noncomputable section

namespace Cert.Hist.Tile

open Idealize.ShloMosaic Idealize.ShloMosaic.ValueIdx Cert.KernelIdeal Cert.KernelIdeal.Gen Cert.Hist

/-- A word is `128 * hi + lo` exactly when its arithmetic shift right by seven is `hi` and its low seven bits are
    `lo` (`hi < 8`, `lo < 128`): a shift that gives a small nonnegative number leaves no room for a set sign bit. -/
theorem word_split (v : BitVec 32) (hi : Fin 8) (lo : Fin 128) :
    (v.sshiftRight 7 = BitVec.ofNat 32 hi.val ∧ v &&& 127#32 = BitVec.ofNat 32 lo.val)
      ↔ v = BitVec.ofNat 32 (128 * hi.val + lo.val) := by
  have hhi := hi.isLt
  have hlo := lo.isLt
  have hv := v.isLt
  have e1 : (v.sshiftRight 7).toInt = v.toInt / 128 := by
    rw [BitVec.toInt_sshiftRight, Int.shiftRight_eq_div_pow]; rfl
  have e2 : (BitVec.ofNat 32 hi.val).toInt = (hi.val : Int) := by
    rw [BitVec.toInt_eq_toNat_cond, BitVec.toNat_ofNat]
    have : hi.val % 2 ^ 32 = hi.val := Nat.mod_eq_of_lt (by omega)
    rw [this]; split <;> omega
  have e3 : (v &&& 127#32).toNat = v.toNat % 128 := by
    rw [BitVec.toNat_and]
    exact Nat.and_two_pow_sub_one_eq_mod v.toNat 7
  have e4 : (BitVec.ofNat 32 lo.val).toNat = lo.val := by
    rw [BitVec.toNat_ofNat]; exact Nat.mod_eq_of_lt (by omega)
  have e5 : (BitVec.ofNat 32 (128 * hi.val + lo.val)).toNat = 128 * hi.val + lo.val := by
    rw [BitVec.toNat_ofNat]; exact Nat.mod_eq_of_lt (by omega)
  have e6 := BitVec.toInt_eq_toNat_cond v
  rw [← BitVec.toInt_inj, ← BitVec.toNat_inj (x := v &&& 127#32), ← BitVec.toNat_inj (x := v), e1, e2, e3, e4, e5, e6]
  constructor
  · rintro ⟨h1, h2⟩
    split at h1 <;> omega
  · intro h
    rw [h]
    have : 2 * (128 * hi.val + lo.val) < 2 ^ 32 := by omega
    rw [if_pos this]
    omega

/-- The real number a one-bit condition converts to through the widening and the signed conversion. -/
theorem sitofp_bit (c : Bool) :
    (((BitVec.setWidth 32 (BitVec.ofBool c)).toInt : ℝ) : EReal) = if c then 1 else 0 := by
  cases c <;> simp

/-- The same for the equality test of two words. -/
theorem cmp_bit (a b : BitVec 32) :
    (((BitVec.setWidth 32 (IntOp.cmpi .eq a b)).toInt : ℝ) : EReal) = if a = b then 1 else 0 := by
  show (((BitVec.setWidth 32 (BitVec.ofBool (a == b))).toInt : ℝ) : EReal) = _
  rw [sitofp_bit]
  by_cases h : a = b <;> simp [h]

/-- The truncating conversion of a natural number below 2^31 is that number as a word. -/
theorem fptosi_natCast (N : ℕ) (hN : N < 2 ^ 31) : Ideal.fptosi 32 ((N : ℝ) : EReal) = BitVec.ofNat 32 N := by
  unfold Ideal.fptosi
  rw [Ideal.toIntClamped_coe, if_pos (Nat.cast_nonneg N), Int.floor_natCast]
  have h1 : min (((2 ^ (32 - 1) : ℕ) : ℤ) - 1) (N : ℤ) = N := by
    apply min_eq_right; push_cast; omega
  have h2 : max (-((2 ^ (32 - 1) : ℕ) : ℤ)) (N : ℤ) = N := by
    apply max_eq_right; push_cast; omega
  rw [h1, h2, BitVec.ofInt_natCast]

/-- A real sum of zero-one indicators, converted to a word, is the word sum of the indicators. -/
theorem fptosi_sum_indicator {ι : Type} [Fintype ι] (c : ι → Prop) [DecidablePred c] (hcard : Fintype.card ι < 2 ^ 31) :
    Ideal.fptosi 32 (∑ n : ι, (if c n then (1 : EReal) else 0)) = ∑ n : ι, (if c n then (1 : BitVec 32) else 0) := by
  have hsum : (∑ n : ι, (if c n then (1 : EReal) else 0)) = (((∑ n : ι, (if c n then 1 else 0 : ℕ) : ℕ) : ℝ) : EReal) := by
    rw [EReal.coe_natCast, Nat.cast_sum]
    exact Finset.sum_congr rfl fun n _ => by split_ifs <;> simp
  have hle : (∑ n : ι, (if c n then 1 else 0 : ℕ)) ≤ Fintype.card ι := by
    rw [Finset.sum_boole]; exact (Finset.card_filter_le _ _).trans (le_of_eq (by simp))
  rw [hsum, fptosi_natCast _ (lt_of_le_of_lt hle hcard), ← BitVec.natCast_eq_ofNat, Nat.cast_sum]
  exact Finset.sum_congr rfl fun n _ => by split_ifs <;> simp

/-- The contraction record of the product, by a short name. -/
abbrev dotD := dot_S65536x8_S65536x128_S8x128_0_0_1_1_n_n

theorem lhsD_0 (j : S8x128.Idx) (k : dotD.contr.Idx) : (dotD.lhsIdx j k 0 : ℕ) = k ⟨0, by decide⟩ :=
  DotDims.lhsIdx_val_of_single dotD (cl := 0) rfl j k
theorem lhsD_1 (j : S8x128.Idx) (k : dotD.contr.Idx) : (dotD.lhsIdx j k 1 : ℕ) = j 0 := by
  simp [DotDims.lhsIdx, dotD, dot_S65536x8_S65536x128_S8x128_0_0_1_1_n_n]; rfl
theorem rhsD_0 (j : S8x128.Idx) (k : dotD.contr.Idx) : (dotD.rhsIdx j k 0 : ℕ) = k ⟨0, by decide⟩ :=
  DotDims.rhsIdx_val_of_single dotD (cr := 0) rfl j k
theorem rhsD_1 (j : S8x128.Idx) (k : dotD.contr.Idx) : (dotD.rhsIdx j k 1 : ℕ) = j 1 := by
  simp [DotDims.rhsIdx, dotD, dot_S65536x8_S65536x128_S8x128_0_0_1_1_n_n]; rfl

/-- The product into the zero block, read at `(hi, lo)`: the sum over the 65536 positions. -/
theorem matmul_at (A : FVec Ideal S65536x8 .bf16) (B : FVec Ideal S65536x128 .bf16) (hi : Fin 8) (lo : Fin 128) :
    matmul dotD none A B (constant S8x128 .f32 0x00000000#32) (ix2 hi lo)
      = ∑ n : Fin 65536, A (ix2 n hi) * B (ix2 n lo) := by
  refine (Ideal.matmul_constant_zero_apply dotD none A B (ix2 hi lo)).trans ?_
  rw [← Equiv.sum_comp (contrEquiv1 dotD 65536 rfl rfl).symm]
  refine Finset.sum_congr rfl fun n _ => ?_
  have hl : dotD.lhsIdx (ix2 hi lo) ((contrEquiv1 dotD 65536 rfl rfl).symm n) = ix2 n hi :=
    Shape.idx_ext₂ ((lhsD_0 _ _).trans (contrEquiv1_symm_val dotD 65536 rfl rfl n)) (lhsD_1 _ _)
  have hr : dotD.rhsIdx (ix2 hi lo) ((contrEquiv1 dotD 65536 rfl rfl).symm n) = ix2 n lo :=
    Shape.idx_ext₂ ((rhsD_0 _ _).trans (contrEquiv1_symm_val dotD 65536 rfl rfl n)) (rhsD_1 _ _)
  rw [hl, hr]

/-- A one-hot operand of the product read at a position and a column: the words `Y` of the tile, each put beside
    the column numbers `0 … K - 1` and compared, the `512 × 128 × K` block of zero-one reals laid out as `65536 × K`.
    Row `128 * r + l`, column `k` is one when the word at `(r, l)` is `k` and zero otherwise. -/
theorem onehot_at {K : ℕ} (Y : IVec S512x128 32)
    (hc : S512x128.ShapeCasts S512x128x1) (hb : S512x128x1.Broadcasts ⟨3, ![512, 128, K]⟩)
    (hio : (⟨3, ![512, 128, K]⟩ : Shape).Iotas .tc 32 [2]) (hc2 : (⟨3, ![512, 128, K]⟩ : Shape).ShapeCasts ⟨2, ![65536, K]⟩)
    (h1 : 1 < 32) (hbits : FTy.bits .bf16 < FTy.bits .f32) (r : Fin 512) (l : Fin 128) (k : Fin K) :
    shapeCast ⟨2, ![65536, K]⟩
        (truncf (F := Ideal) .bf16 (sitofp .f32 (extui 32 (cmpi .eq
          (broadcastTo ⟨3, ![512, 128, K]⟩ (shapeCast S512x128x1 Y hc) hb) (iota .tc ⟨3, ![512, 128, K]⟩ 32 [2] hio)) h1)) hbits)
        hc2 (ix2 ⟨128 * r.val + l.val, by have := r.isLt; have := l.isLt; omega⟩ k)
      = if Y (ix2 r l) = BitVec.ofNat 32 k.val then 1 else 0 := by
  refine (shapeCast_apply _ hc2 _ (ix3 r l k) ?_).trans ?_
  · rw [Shape.rowMajor_val_three, Shape.rowMajor_val_two]
    show (r.val * 128 + l.val) * K + k.val = (128 * r.val + l.val) * K + k.val
    rw [Nat.mul_comm r.val 128]
  have e1 : broadcastTo ⟨3, ![512, 128, K]⟩ (shapeCast S512x128x1 Y hc) hb (ix3 r l k) = Y (ix2 r l) := by
    refine (broadcastTo_apply _ hb (ix3 r l k) (ix3 r l (0 : Fin 1)) fun a => ?_).trans ?_
    · match a with
      | ⟨0, _⟩ => rfl
      | ⟨1, _⟩ => rfl
      | ⟨2, _⟩ => rfl
    refine shapeCast_apply Y hc (ix3 r l (0 : Fin 1)) (ix2 r l) ?_
    rw [Shape.rowMajor_val_three, Shape.rowMajor_val_two]
    show r.val * 128 + l.val = (r.val * 128 + l.val) * 1 + 0
    omega
  have e2 : iota .tc ⟨3, ![512, 128, K]⟩ 32 [2] hio (ix3 r l k) = BitVec.ofNat 32 k.val :=
    iota_single_apply .tc ⟨3, ![512, 128, K]⟩ 32 2 hio (ix3 r l k)
  exact (congrArg₂ (fun a b : BitVec 32 => (((BitVec.setWidth 32 (IntOp.cmpi .eq a b)).toInt : ℝ) : EReal)) e1 e2).trans
    (cmp_bit _ _)

/-- The row-major position of row `r`, lane `l` in the tile. -/
abbrev rmPos (r : Fin 512) (l : Fin 128) : Fin 65536 :=
  ⟨128 * r.val + l.val, by have := r.isLt; have := l.isLt; omega⟩

/-- Positions are the pairs (row, lane). -/
def posEquiv : Fin 512 × Fin 128 ≃ Fin 65536 where
  toFun p := rmPos p.1 p.2
  invFun n := (⟨n.val / 128, by have := n.isLt; omega⟩, ⟨n.val % 128, Nat.mod_lt _ (by omega)⟩)
  left_inv p := by
    have := p.1.isLt
    have := p.2.isLt
    refine Prod.ext (Fin.ext ?_) (Fin.ext ?_)
    · show (128 * p.1.val + p.2.val) / 128 = p.1.val
      omega
    · show (128 * p.1.val + p.2.val) % 128 = p.2.val
      omega
  right_inv n := by
    refine Fin.ext ?_
    show 128 * (n.val / 128) + n.val % 128 = n.val
    omega

/-- The product of two one-hot operands into the zero block, converted to a word, counts the positions where both
    conditions hold. -/
theorem count_of_onehot (A : FVec Ideal S65536x8 .bf16) (B : FVec Ideal S65536x128 .bf16) (hi : Fin 8) (lo : Fin 128)
    (P Q : Fin 512 → Fin 128 → Prop) [∀ r l, Decidable (P r l)] [∀ r l, Decidable (Q r l)]
    (hA : ∀ r l, A (ix2 (rmPos r l) hi) = if P r l then 1 else 0)
    (hB : ∀ r l, B (ix2 (rmPos r l) lo) = if Q r l then 1 else 0) :
    Ideal.fptosi 32 (matmul dotD none A B (constant S8x128 .f32 0x00000000#32) (ix2 hi lo))
      = ∑ r : Fin 512, ∑ l : Fin 128, if P r l ∧ Q r l then (1 : BitVec 32) else 0 := by
  refine (congrArg (Ideal.fptosi 32) (matmul_at A B hi lo)).trans ?_
  have hs : (∑ n : Fin 65536, A (ix2 n hi) * B (ix2 n lo))
      = ∑ p : Fin 512 × Fin 128, (if P p.1 p.2 ∧ Q p.1 p.2 then (1 : EReal) else 0) := by
    rw [← Equiv.sum_comp posEquiv]
    refine Finset.sum_congr rfl fun p _ => ?_
    show A (ix2 (rmPos p.1 p.2) hi) * B (ix2 (rmPos p.1 p.2) lo) = _
    rw [hA, hB]
    by_cases h1 : P p.1 p.2 <;> by_cases h2 : Q p.1 p.2 <;> simp [h1, h2]
  have hcard : Fintype.card (Fin 512 × Fin 128) < 2 ^ 31 := by
    rw [Fintype.card_prod, Fintype.card_fin, Fintype.card_fin]; norm_num
  rw [hs, fptosi_sum_indicator _ hcard, Fintype.sum_prod_type]

/-- The high part of the tile's words: the arithmetic shift right by seven. -/
theorem hiword_at (X : Vec Ideal S512x128 .i32) (h : S512x128.ShapeCasts S512x128) (r : Fin 512) (l : Fin 128) :
    shrsi (shapeCast S512x128 X h) (broadcast S512x128 7#32) (ix2 r l) = (X (ix2 r l)).sshiftRight 7 := by
  rw [shapeCast_self]
  show IntOp.shrsi .vector (X (ix2 r l)) 7#32 = _
  unfold IntOp.shrsi
  rw [if_pos (by decide)]
  rfl

/-- The low part of the tile's words: the low seven bits. -/
theorem loword_at (X : Vec Ideal S512x128 .i32) (h : S512x128.ShapeCasts S512x128) (r : Fin 512) (l : Fin 128) :
    andi (shapeCast S512x128 X h) (broadcast S512x128 127#32) (ix2 r l) = X (ix2 r l) &&& 127#32 := by
  rw [shapeCast_self]
  rfl

/-- The reset value is zero at every index. -/
theorem pay1_apply (j : S1x8x128.Idx) : (k0_pay1 : IVec S1x8x128 32) j = 0#32 := rfl

/-- The accumulate step at bin `(hi, lo)`: the running word plus the tile's count of bin `128 * hi + lo`. -/
theorem pay2_apply (X : Vec Ideal S512x128 .i32) (acc : Vec Ideal S1x8x128 .i32) (hi : Fin 8) (lo : Fin 128) :
    k0_pay2 (F := Ideal) X acc (ix3 (0 : Fin 1) hi lo) = acc (ix3 (0 : Fin 1) hi lo) + tileHist X hi lo := by
  unfold k0_pay2
  dsimp only
  change _ + _ = _ + _
  refine congrArg₂ (· + ·) ?_ ?_
  · exact congrFun (shapeCast_self acc _) _
  refine (shapeCast_apply _ _ (ix3 (0 : Fin 1) hi lo) (ix2 hi lo) ?_).trans ?_
  · rw [Shape.rowMajor_val_three, Shape.rowMajor_val_two]
    show hi.val * 128 + lo.val = ((0 : Fin 1).val * 8 + hi.val) * 128 + lo.val
    simp
  show Ideal.fptosi 32 (matmul (F := Ideal) dotD none _ _ _ (ix2 hi lo)) = _
  refine (count_of_onehot _ _ hi lo (fun r l => (X (ix2 r l)).sshiftRight 7 = BitVec.ofNat 32 hi.val)
    (fun r l => X (ix2 r l) &&& 127#32 = BitVec.ofNat 32 lo.val) (fun r l => ?_) (fun r l => ?_)).trans ?_
  · refine (onehot_at _ _ _ _ _ _ _ r l hi).trans ?_
    rw [hiword_at]
  · refine (onehot_at _ _ _ _ _ _ _ r l lo).trans ?_
    rw [loword_at]
  · unfold tileHist hit
    exact Finset.sum_congr rfl fun r _ => Finset.sum_congr rfl fun l _ => if_congr (word_split _ hi lo) rfl rfl

end Cert.Hist.Tile

end
-- ==== Proof.Split.lean ====
/-
  The histogram over all 2^25 positions is the sum of the two halves' counts, each half the sum of its 256
  tiles' counts: the positions are the triples (tile, row, lane) through `tilePos`, a bijection.
-/
import proofs.«400439_j38474317038177_2_alg».proof.Proof.Spec
import Mathlib.Algebra.BigOperators.Intervals
import Mathlib.Algebra.BigOperators.Fin
import Mathlib.Logic.Equiv.Fin.Basic

noncomputable section

namespace Cert.Hist

open Idealize.ShloMosaic Idealize.ShloMosaic.ValueIdx

/-- The positions are exactly the triples (tile, row, lane): `tilePos` is a bijection, with inverse
    `n ↦ (n / 65536, n / 128 % 512, n % 128)`. -/
def posEquiv : (Fin 512 × Fin 512 × Fin 128) ≃ Fin 33554432 where
  toFun p := tilePos p.1 p.2.1 p.2.2
  invFun n := (⟨n.val / 65536, by have := n.isLt; omega⟩, ⟨n.val / 128 % 512, Nat.mod_lt _ (by omega)⟩,
    ⟨n.val % 128, Nat.mod_lt _ (by omega)⟩)
  left_inv := by
    rintro ⟨s, r, l⟩
    have hs := s.isLt; have hr := r.isLt; have hl := l.isLt
    refine Prod.ext (Fin.ext ?_) (Prod.ext (Fin.ext ?_) (Fin.ext ?_))
    · show ((512 * s.val + r.val) * 128 + l.val) / 65536 = s.val
      omega
    · show ((512 * s.val + r.val) * 128 + l.val) / 128 % 512 = r.val
      omega
    · show ((512 * s.val + r.val) * 128 + l.val) % 128 = l.val
      omega
  right_inv := by
    intro n
    have hn := n.isLt
    apply Fin.ext
    show (512 * (n.val / 65536) + n.val / 128 % 512) * 128 + n.val % 128 = n.val
    omega

/-- A sum over all positions is the sum over tiles, rows and lanes. -/
theorem sum_positions (f : Fin 33554432 → BitVec 32) :
    ∑ n, f n = ∑ s : Fin 512, ∑ r : Fin 512, ∑ l : Fin 128, f (tilePos s r l) := by
  rw [← posEquiv.sum_comp f, Fintype.sum_prod_type]
  refine Finset.sum_congr rfl fun s _ => ?_
  rw [Fintype.sum_prod_type]
  rfl

/-- The sum of all 512 tiles' counts is the first 256 tiles' plus the last 256 tiles'. -/
theorem sum_tiles (x : (⟨1, ![33554432]⟩ : Shape).Idx → BitVec 32) (hi : Fin 8) (lo : Fin 128) :
    ∑ s : Fin 512, tileHist (tile x s) hi lo = partHist x 0 hi lo + partHist x 1 hi lo := by
  have h0 : Finset.Icc (256 * 0) (256 * 0 + 255) = Finset.Ico 0 256 := by
    ext s; simp only [Finset.mem_Icc, Finset.mem_Ico]; omega
  have h1 : Finset.Icc (256 * 1) (256 * 1 + 255) = Finset.Ico 256 512 := by
    ext s; simp only [Finset.mem_Icc, Finset.mem_Ico]; omega
  unfold partHist
  rw [h0, h1, Finset.sum_Ico_consecutive _ (by omega) (by omega), ← Finset.range_eq_Ico,
    Finset.sum_fin_eq_sum_range]
  rfl

/-- Bin `b` is bin `(b / 128, b % 128)` of the tiles; the histogram is the first half's count plus the second's
    (written as the sum is taken on the kernel's side: from zero, the first half, then the second). -/
theorem hist_eq_parts (x : (⟨1, ![33554432]⟩ : Shape).Idx → BitVec 32) (b : Fin 600) :
    hist x (ix1 b) = 0#32 + partHist x 0 ⟨b.val / 128, by have := b.isLt; omega⟩ ⟨b.val % 128, Nat.mod_lt _ (by decide)⟩
      + partHist x 1 ⟨b.val / 128, by have := b.isLt; omega⟩ ⟨b.val % 128, Nat.mod_lt _ (by decide)⟩ := by
  have hz : (0#32 : BitVec 32) = 0 := rfl
  rw [hz, zero_add, ← sum_tiles]
  show ∑ n : Fin 33554432, hit (x (ix1 n)) b.val = _
  rw [sum_positions]
  refine Finset.sum_congr rfl fun s _ => ?_
  unfold tileHist
  refine Finset.sum_congr rfl fun r _ => Finset.sum_congr rfl fun l _ => ?_
  rw [tile_apply]
  have hb : 128 * (b.val / 128) + b.val % 128 = b.val := by omega
  show hit (x (ix1 (tilePos s r l))) b.val = hit (x (ix1 (tilePos s r l))) (128 * (b.val / 128) + b.val % 128)
  rw [hb]

end Cert.Hist

end
-- ==== Proof.KernelValue.lean ====
/-
  What the kernel's run leaves in its result: the histogram of the argument.

  The grid has 512 points. Point `t` reads tile `t` of the argument (rows `512 t … 512 t + 511` of the argument laid out
  as 262144 rows of 128) and works on output block `t / 256` of a [2, 8, 128] array of words. At a point whose number
  is a multiple of 256 the body first stores zeros in the block; at every point it adds the tile's table of counts to
  the block. So after point `n` the block holds, at `(hi, lo)`, the sum of the counts of bin `128 * hi + lo` over the
  tiles from the last multiple of 256 through `n` (`outsAt_eq`, by induction on the point). The block is written back
  after points 255 and 511, which fills the array with the two halves' counts (`flushed_eq`, `final`).

  The host then adds the two halves entry by entry starting from zero, reads the 8 × 128 table as 1024 bins in row-major
  order, so that bin `b` is entry `(b / 128, b % 128)`, and keeps bins `0 … 599` (`tail_apply`). With the decomposition
  of the positions into tiles this is the histogram (`result_eq`), and `run` states it of every execution.
-/
import proofs.«400439_j38474317038177_2_alg».proof.Defs
import proofs.«400439_j38474317038177_2_alg».proof.Proof.Gen.KernelIdeal.Frame
import proofs.«400439_j38474317038177_2_alg».proof.Proof.Spec
import proofs.«400439_j38474317038177_2_alg».proof.Proof.Tile
import proofs.«400439_j38474317038177_2_alg».proof.Proof.Split
import Idealize.ShloMosaic.PureOps.Reduce
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.HistValue

open Cert.KernelIdeal Cert.KernelIdeal.Gen Cert.Hist Idealize.ShloMosaic.ValueIdx

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that does not reset, the body leaves the accumulate step's payload of the tile and of what the block held. -/
theorem out_B (c : Dev nD) (i : grid0.Coords) (a2 : Memref sig .tc .vmem S512x128 .i32) (h2 : a2.IsWhole)
    (a3 : Memref sig .tc .vmem S1x8x128 .i32) (h3 : a3.IsWhole) (hc : ¬cond0_0 i) (x : Vec F S512x128 .i32) (xo : Vec F S1x8x128 .i32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz3]
  simp only [View.readAt_eq_ld, h2.read_unread, h3.read_unread, View.ld_unit_zero (S := S512x128) hz2,
    View.ld_unit_zero (S := S1x8x128) hz3]

/-- At a point that resets, the body stores the zero block, reads it back, and leaves the accumulate step's payload of the
    tile and of the zero block. -/
theorem out_A (c : Dev nD) (i : grid0.Coords) (a2 : Memref sig .tc .vmem S512x128 .i32) (h2 : a2.IsWhole)
    (a3 : Memref sig .tc .vmem S1x8x128 .i32) (h3 : a3.IsWhole) (hc : cond0_0 i) (x : Vec F S512x128 .i32) :
    out0_A_1 c i a2 h2 a3 h3 hc x = k0_pay2 x (k0_pay1 : IVec S1x8x128 32) := by
  unfold out0_A_1
  rw [View.read_writes_eq_canon _ _ _ (cover0_A_1 c i a2 h2 a3 h3 hc x)]
  unfold kernelRun0_A
  dsimp only
  sl_unfold_words
  rw [View.canon_cons_unit_zero (S := S1x8x128) hz3, View.readCov_unit_zero (S := S1x8x128) _ hz3]
  simp only [View.readAt_eq_ld, h2.read_unread, View.ld_unit_zero (S := S512x128) hz2]

end Pieces

section Value

variable (m : (ℓ : Loc nD τ sig) → Buf (Elt Ideal) ℓ) (ρ : Dev nD → PrngReg)

/-- The argument array on core `c`. -/
abbrev xarg (c : Dev nD) : (⟨1, ![33554432]⟩ : Shape).Idx → BitVec 32 := m ((c : Thread nD τ).loc main_arg0)

/-- The region finds its operand at the argument reshaped to 262144 rows of 128. -/
theorem V_v0 (c : Dev nD) :
    (V m c main_v0 : S262144x128.Idx → BitVec 32) = shapeCast S262144x128 (xarg m c) shapeCasts_S33554432_S262144x128 := by
  show StableHlo.after hostOps0 (fun b => m (c, b)) (Proc.devRef .tc main_v0) = _
  after_results
  rfl

/-- The printed index maps over the grid: point `t` reads row block `t`, and writes output block `t / 256`. -/
theorem idx_facts : ∀ t : Fin cfg0.N, win0_0.index t (0 : Fin 2) = t.val ∧ win0_0.index t (1 : Fin 2) = 0
    ∧ win0_1.index t (0 : Fin 3) = t.val / 256 ∧ win0_1.index t (1 : Fin 3) = 0 ∧ win0_1.index t (2 : Fin 3) = 0 :=
  (by decide +kernel : ∀ t : Fin grid0.N, _)

/-- The input block at point `t` is tile `t` of the argument: row `r`, lane `l` of the block is row `512 t + r`, lane `l`
    of the reshaped argument, position `(512 t + r) * 128 + l`. -/
theorem iblk_eq_tile (c : Dev nD) (t : Fin cfg0.N) (ht : t.val < 512) :
    (iblk m c 0 t : (⟨2, ![512, 128]⟩ : Shape).Idx → BitVec 32) = tile (xarg m c) ⟨t.val, ht⟩ := by
  obtain ⟨e0, e1, -⟩ := idx_facts t
  funext y
  unfold iblk
  rw [View.read_apply]
  show V m c main_v0 (((cfg0.win 0).blk t).view.emb y) = _
  rw [V_v0]
  refine (shapeCast_apply (xarg m c) shapeCasts_S33554432_S262144x128 _ (ix1 (tilePos ⟨t.val, ht⟩ (y 0) (y 1))) ?_).trans rfl
  rw [Shape.rowMajor_val_one, Shape.rowMajor_val_two]
  show (512 * t.val + (y 0).val) * 128 + (y 1).val
    = (win0_0.index t (0 : Fin 2) * 512 + 1 * (y 0).val) * 128 + (win0_0.index t (1 : Fin 2) * 128 + 1 * (y 1).val)
  rw [e0, e1]
  omega

/-- So the block's count of a bin is the tile's. -/
theorem tileHist_iblk (c : Dev nD) (t : Fin cfg0.N) (ht : t.val < 512) (hi : Fin 8) (lo : Fin 128) :
    tileHist (iblk m c 0 t) hi lo = tileAt (xarg m c) t.val hi lo := by
  rw [tileAt, dif_pos ht]
  exact congrArg (fun X => tileHist X hi lo) (iblk_eq_tile m c t ht)

/-- THE RUNNING COUNT. After point `n` the output's staging block holds, at bin `(hi, lo)`, the sum of the tiles' counts
    from the last reset (the greatest multiple of 256 not above `n`) through `n`. -/
theorem outsAt_eq (c : Dev nD) (hi : Fin 8) (lo : Fin 128) : ∀ (n : ℕ) (h : n < cfg0.N),
    outsAt0 m c n h (ix3 (0 : Fin 1) hi lo) = ∑ s ∈ Finset.Icc (n - n % 256) n, tileAt (xarg m c) s hi lo
  | 0, h => by
    have hN : cfg0.N = 512 := N_0
    rw [outsAt0_A m c ⟨0, h⟩ rfl, out_A]
    refine (Tile.pay2_apply (iblk m c 0 ⟨0, h⟩) (k0_pay1 : IVec S1x8x128 32) hi lo).trans ?_
    rw [Tile.pay1_apply, tileHist_iblk m c ⟨0, h⟩ (by show 0 < 512; omega)]
    show (0#32 : BitVec 32) + tileAt (xarg m c) 0 hi lo = ∑ s ∈ Finset.Icc 0 0, tileAt (xarg m c) s hi lo
    rw [Finset.Icc_self, Finset.sum_singleton]
    exact zero_add _
  | n + 1, h => by
    have hN : cfg0.N = 512 := N_0
    have hn : n + 1 < 512 := by omega
    by_cases h0 : (n + 1) % 256 = 0
    · rw [outsAt0_A m c ⟨n + 1, h⟩ h0, out_A]
      refine (Tile.pay2_apply (iblk m c 0 ⟨n + 1, h⟩) (k0_pay1 : IVec S1x8x128 32) hi lo).trans ?_
      rw [Tile.pay1_apply, tileHist_iblk m c ⟨n + 1, h⟩ hn]
      have e : n + 1 - (n + 1) % 256 = n + 1 := by omega
      rw [e, Finset.Icc_self, Finset.sum_singleton]
      exact zero_add _
    · rw [outsAt0_B m c ⟨n + 1, h⟩ h0, out_B]
      refine (Tile.pay2_apply (iblk m c 0 ⟨n + 1, h⟩) (outsAt0 m c n (Nat.lt_of_succ_lt h)) hi lo).trans ?_
      rw [outsAt_eq c hi lo n (Nat.lt_of_succ_lt h), tileHist_iblk m c ⟨n + 1, h⟩ hn]
      have e : n + 1 - (n + 1) % 256 = n - n % 256 := by omega
      rw [e, Finset.sum_Icc_succ_top (by omega)]

/-- What the kernel's output array [2, 8, 128] holds after the run: entry `(p, hi, lo)` is half `p`'s count of bin
    `128 * hi + lo`. -/
def outArr (c : Dev nD) : (⟨3, ![2, 8, 128]⟩ : Shape).Idx → BitVec 32 :=
  fun j => partHist (xarg m c) (j 0).val ⟨(j 1).val, (j 1).isLt⟩ ⟨(j 2).val, (j 2).isLt⟩

theorem outArr_apply (c : Dev nD) (j : (⟨3, ![2, 8, 128]⟩ : Shape).Idx) (p : ℕ) (hi : Fin 8) (lo : Fin 128)
    (h0 : (j 0).val = p) (h1 : (j 1).val = hi.val) (h2 : (j 2).val = lo.val) :
    outArr m c j = partHist (xarg m c) p hi lo := by
  unfold outArr
  subst h0
  congr 1
  · exact Fin.ext h1
  · exact Fin.ext h2

/-- The write-back after the last tile of a half writes that half's counts: block `t / 256` of the output array. -/
theorem flushed_eq (c : Dev nD) (t : Fin cfg0.N) (hf : (cfg0.win 1).flush t = true) :
    (dats m 0 c).flushed 1 t = ((cfg0.win 1).blk t).view.read (Elt Ideal) (outArr m c) := by
  have hN : cfg0.N = 512 := N_0
  have ht : t.val < 512 := by have := t.isLt; omega
  have h255 : t.val % 256 = 255 := (flush0_1 t).mp hf
  obtain ⟨-, -, e0, e1, e2⟩ := idx_facts t
  show (cfg0.win 1).cut (grid0.coords t) ((dats m 0 c).after 1 t) = _
  rw [after0_1]
  funext y
  obtain ⟨a, hi, lo, rfl⟩ : ∃ (a : Fin 1) (hi : Fin 8) (lo : Fin 128), y = ix3 a hi lo := ⟨y 0, y 1, y 2, eq_ix3 y⟩
  obtain rfl : a = 0 := Subsingleton.elim _ _
  show outsAt0 m c t.val t.isLt (ix3 (0 : Fin 1) hi lo) = outArr m c (((cfg0.win 1).blk t).view.emb (ix3 (0 : Fin 1) hi lo))
  rw [outsAt_eq m c hi lo t.val t.isLt]
  refine Eq.trans ?_ (outArr_apply m c _ (t.val / 256) hi lo ?_ ?_ ?_).symm
  · unfold partHist
    have ea : t.val - t.val % 256 = 256 * (t.val / 256) := by omega
    have eb : t.val = 256 * (t.val / 256) + 255 := by omega
    rw [ea]
    exact congrArg (fun b => ∑ s ∈ Finset.Icc (256 * (t.val / 256)) b, tileAt (xarg m c) s hi lo) eb
  · show win0_1.index t (0 : Fin 3) * 1 + 1 * (0 : ℕ) = t.val / 256
    rw [e0]; omega
  · show win0_1.index t (1 : Fin 3) * 8 + 1 * hi.val = hi.val
    rw [e1]; omega
  · show win0_1.index t (2 : Fin 3) * 128 + 1 * lo.val = lo.val
    rw [e2]; omega

/-- The two write-backs fill the output array. -/
theorem final (c : Dev nD) : (dats m 0 c).arrAt 1 cfg0.N = outArr m c :=
  (dats m 0 c).arrAt_eq_of_cover 1 (outArr m c) (flushed_eq m c) fun i => by
    have hN : cfg0.N = 512 := N_0
    have h0 : (i 0 : Nat) < 2 := (i 0).isLt
    have h1 : (i 1 : Nat) < 8 := (i 1).isLt
    have h2 : (i 2 : Nat) < 128 := (i 2).isLt
    let t : Fin cfg0.N := ⟨256 * (i 0 : Nat) + 255, by omega⟩
    have tv : t.val = 256 * (i 0 : Nat) + 255 := rfl
    obtain ⟨-, -, e0, e1, e2⟩ := idx_facts t
    refine ⟨t, (flush0_1 t).mpr (by rw [tv]; omega), ?_⟩
    show i ∈ ((View.whole main_v1).slice (win0_1.rect t)).set
    rw [View.set_slice_whole, Rect.mem_set_unit]
    intro a
    match a with
    | ⟨0, _⟩ => show win0_1.index t (0 : Fin 3) * 1 ≤ (i 0 : Nat) ∧ (i 0 : Nat) < win0_1.index t (0 : Fin 3) * 1 + 1
                rw [e0, tv]; omega
    | ⟨1, _⟩ => show win0_1.index t (1 : Fin 3) * 8 ≤ (i 1 : Nat) ∧ (i 1 : Nat) < win0_1.index t (1 : Fin 3) * 8 + 8
                rw [e1]; omega
    | ⟨2, _⟩ => show win0_1.index t (2 : Fin 3) * 128 ≤ (i 2 : Nat) ∧ (i 2 : Nat) < win0_1.index t (2 : Fin 3) * 128 + 128
                rw [e2]; omega

/-- The host lines after the region, as one function of the output array: the sum over the two halves, laid out as
    1024 bins, the first 600 kept. -/
def tail (A : (⟨3, ![2, 8, 128]⟩ : Shape).Idx → BitVec 32) : (⟨1, ![600]⟩ : Shape).Idx → BitVec 32 :=
  extractStridedSlice S600 ![0]
    (shapeCast S1024 (Host.reduce IntOp.addi A (constantI S_ 32 0#32) reducesTo_S2x8x128_S8x128_d0 h_S_) shapeCasts_S8x128_S1024)
    slices_S1024_S600_0

/-- What the result buffer holds after the lines that follow the region. -/
theorem tail_eq (c : Dev nD) :
    Pipeline.afterTail₀ cfgs (dats m) 0 (V0 m) [hostOps1] c main_v4 = tail (outArr m c) := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) 1).trans (final m c)
  exact congrArg tail e

/-- A fold of the word addition over a finite set is the start plus the sum. -/
theorem fold_addi_eq_sum {ι : Type} (s : Finset ι) (z : BitVec 32) (f : ι → BitVec 32) :
    s.fold IntOp.addi z f = z + ∑ i ∈ s, f i := by
  induction s using Finset.cons_induction with
  | empty => simp
  | cons a S ha ih =>
    rw [Finset.fold_cons, Finset.sum_cons, ih]
    show f a + (z + _) = z + (f a + _)
    exact add_left_comm _ _ _

/-- The host lines at bin `b`: bin `b` of the 1024 is entry `(b / 128, b % 128)` of the sum of the two halves, taken from zero. -/
theorem tail_apply (c : Dev nD) (b : Fin 600) :
    tail (outArr m c) (ix1 b)
      = 0#32 + partHist (xarg m c) 0 ⟨b.val / 128, by have := b.isLt; omega⟩ ⟨b.val % 128, Nat.mod_lt _ (by decide)⟩
        + partHist (xarg m c) 1 ⟨b.val / 128, by have := b.isLt; omega⟩ ⟨b.val % 128, Nat.mod_lt _ (by decide)⟩ := by
  have hb := b.isLt
  unfold tail
  refine (extractStridedSlice_apply ![0] _ slices_S1024_S600_0 (ix1 b) (ix1 (⟨b.val, by omega⟩ : Fin 1024)) ?_).trans ?_
  · intro a
    match a with
    | ⟨0, _⟩ => show b.val = 0 + b.val; omega
  refine (shapeCast_apply _ shapeCasts_S8x128_S1024 (ix1 (⟨b.val, by omega⟩ : Fin 1024))
    (ix2 (⟨b.val / 128, by omega⟩ : Fin 8) (⟨b.val % 128, Nat.mod_lt _ (by decide)⟩ : Fin 128)) ?_).trans ?_
  · rw [Shape.rowMajor_val_two, Shape.rowMajor_val_one]
    show b.val / 128 * 128 + b.val % 128 = b.val
    omega
  have hR : S2x8x128.Reduces [(0 : Fin 3)] S8x128 := by decide
  rw [Host.reduce_eq_fold_single IntOp.addi (outArr m c) (constantI S_ 32 0#32) reducesTo_S2x8x128_S8x128_d0 hR h_S_,
    fold_addi_eq_sum]
  show (0#32 : BitVec 32) + ∑ k : Fin 2, outArr m c (hR.lift (ix2 (⟨b.val / 128, by omega⟩ : Fin 8) (⟨b.val % 128, Nat.mod_lt _ (by decide)⟩ : Fin 128)) k) = _
  rw [Fin.sum_univ_two, ← add_assoc]
  refine congrArg₂ (· + ·) (congrArg (0#32 + ·) ?_) ?_
  · exact outArr_apply m c _ 0 _ _ rfl rfl rfl
  · exact outArr_apply m c _ 1 _ _ rfl rfl rfl

/-- The host lines of the two halves' counts give the histogram. -/
theorem result_eq (c : Dev nD) : tail (outArr m c) = hist (xarg m c) := by
  funext j
  obtain ⟨b, rfl⟩ : ∃ b : Fin 600, j = ix1 b := ⟨j 0, eq_ix1 j⟩
  exact (tail_apply m c b).trans (hist_eq_parts (xarg m c) b).symm

/-- The kernel's run, read: the result buffer ends at the histogram of the argument, the argument unchanged. -/
theorem run : θ_run defs (onTc (τ := τ) (main (F := Ideal))) ⟨m, fun _ => 0, ρ⟩ fun r => ∀ c : Dev nD,
      r.2.mem ((c : Thread nD τ).loc main_v4) = hist (xarg m c)
      ∧ r.2.mem ((c : Thread nD τ).loc main_arg0) = m ((c : Thread nD τ).loc main_arg0) :=
  (θ_run defs _ _).mono (fun _ h c =>
      ⟨((h c).2 main_v4 (Pipeline.mem_restRefs_of main_v4 (by decide) (by decide))).trans ((tail_eq m c).trans (result_eq m c)),
        ((h c).2 main_arg0 (Pipeline.mem_restRefs_of main_arg0 (by decide) (by decide))).trans (W_main_arg0 m (dats m) c)⟩)
    (run_main m ρ)

end Value

end Cert.KernelIdeal.HistValue

end
-- ==== Proof.RefValue.lean ====
/-
  The reference's scatter of ones is the histogram.

  The scatter walks the 2^25 positions in order; at position `n` it reads the word `x n` as a signed start
  index and, when that index is inside `[0, 600)`, adds one to that bin; otherwise the update is dropped. So bin
  `b` ends at the number of positions whose word is `b`.
-/
import proofs.«400439_j38474317038177_2_alg».proof.Defs
import proofs.«400439_j38474317038177_2_alg».proof.Proof.Gen.ReferenceIdeal.Run
import proofs.«400439_j38474317038177_2_alg».proof.Proof.Gen.ReferenceIdeal.Read
import proofs.«400439_j38474317038177_2_alg».proof.Proof.Spec

noncomputable section

namespace Cert.Hist.Ref

open Idealize.ShloMosaic Idealize.ShloMosaic.ValueIdx Cert.ReferenceIdeal Cert.ReferenceIdeal.Gen Cert.Hist

/-- The coordinate of a rank-1 index built from `n` is `n`, on whichever name the one axis has. -/
theorem ix1_val {m : Nat} (n : Fin m) (x : Fin 1) : ((ix1 n) x).val = n.val := by
  match x with | ⟨0, _⟩ => rfl

/-- The operand's one axis is inserted: no operand axis takes a window coordinate. -/
theorem sKept_eq : scatter_S600_S33554432x1_S33554432_n_0_0_1.sKept = [] := by decide

/-- The window coordinate is zero on the operand's axis. -/
theorem window_eq (n : Fin 33554432) (a : Fin S600.rank) :
    scatter_S600_S33554432x1_S33554432_n_0_0_1.window (ix1 n) a = 0 := by
  unfold ScatterDims.window
  rw [dif_neg]
  rw [sKept_eq]; exact List.not_mem_nil

/-- Update `n` reads its start index at row `n`, column 0 of the index column. -/
theorem siIdx_eq (n : Fin 33554432) (c : Fin scatter_S600_S33554432x1_S33554432_n_0_0_1.scatterDimsToOperandDims.length) :
    scatter_S600_S33554432x1_S33554432_n_0_0_1.siIdx (ix1 n) c = ix2 n (0 : Fin 1) := by
  funext b
  match b with
  | ⟨0, _⟩ =>
    apply Fin.ext
    unfold ScatterDims.siIdx
    split
    · next hb => exact absurd hb (show ¬ (0 : Nat) = 1 by decide)
    · unfold ScatterDims.siCoord
      simp only [Fin.coe_cast]
      exact ix1_val n _
  | ⟨1, _⟩ =>
    apply Fin.ext
    have hc : c.val < 1 := c.isLt
    unfold ScatterDims.siIdx
    split
    · show c.val = 0
      omega
    · next hb => exact absurd (show (1 : Nat) = 1 from rfl) hb

/-- The start on the operand's axis is the word at row `n` of the index column, read signed. -/
theorem start_eq (n : Fin 33554432) (idx : IVec S33554432x1 32) (a : Fin S600.rank) :
    scatter_S600_S33554432x1_S33554432_n_0_0_1.start (ix1 n) idx a = (idx (ix2 n (0 : Fin 1))).toInt := by
  unfold ScatterDims.start
  have ha : a ∈ scatter_S600_S33554432x1_S33554432_n_0_0_1.scatterDimsToOperandDims := by
    have : a = 0 := Subsingleton.elim _ _
    subst this
    decide
  rw [dif_pos ha, siIdx_eq]

/-- A start inside `[0, 600)` lands at the bin of that number. -/
theorem resultIdx_some (n : Fin 33554432) (idx : IVec S33554432x1 32)
    (h0 : 0 ≤ (idx (ix2 n (0 : Fin 1))).toInt) (h1 : (idx (ix2 n (0 : Fin 1))).toInt < 600) :
    scatter_S600_S33554432x1_S33554432_n_0_0_1.resultIdx? (ix1 n) idx
      = some (ix1 (⟨(idx (ix2 n (0 : Fin 1))).toInt.toNat, by omega⟩ : Fin 600)) := by
  have H : ∀ a, 0 ≤ scatter_S600_S33554432x1_S33554432_n_0_0_1.start (ix1 n) idx a
        + scatter_S600_S33554432x1_S33554432_n_0_0_1.window (ix1 n) a
      ∧ scatter_S600_S33554432x1_S33554432_n_0_0_1.start (ix1 n) idx a
        + scatter_S600_S33554432x1_S33554432_n_0_0_1.window (ix1 n) a < S600.size a := by
    intro a
    rw [start_eq, window_eq]
    have : a = 0 := Subsingleton.elim _ _
    subst this
    show 0 ≤ _ + ((0 : Nat) : Int) ∧ _ + ((0 : Nat) : Int) < ((600 : Nat) : Int)
    omega
  unfold ScatterDims.resultIdx?
  rw [dif_pos H]
  congr 1
  funext a
  match a with
  | ⟨0, _⟩ =>
    apply Fin.ext
    show (scatter_S600_S33554432x1_S33554432_n_0_0_1.start (ix1 n) idx _
      + scatter_S600_S33554432x1_S33554432_n_0_0_1.window (ix1 n) _).toNat = (idx (ix2 n (0 : Fin 1))).toInt.toNat
    rw [start_eq, window_eq]
    simp

/-- A start outside `[0, 600)` is dropped. -/
theorem resultIdx_none (n : Fin 33554432) (idx : IVec S33554432x1 32)
    (h : ¬ (0 ≤ (idx (ix2 n (0 : Fin 1))).toInt ∧ (idx (ix2 n (0 : Fin 1))).toInt < 600)) :
    scatter_S600_S33554432x1_S33554432_n_0_0_1.resultIdx? (ix1 n) idx = none := by
  unfold ScatterDims.resultIdx?
  rw [dif_neg]
  intro H
  apply h
  have := H 0
  rw [start_eq, window_eq] at this
  have h600 : ((S600.size 0 : Nat) : Int) = 600 := rfl
  rw [h600] at this
  omega

/-- A word is the number `k < 600` exactly when, read signed, it is inside `[0, 600)` and is `k`. -/
theorem word_iff (v : BitVec 32) (k : Nat) (hk : k < 600) :
    v = BitVec.ofNat 32 k ↔ (0 ≤ v.toInt ∧ v.toInt < 600 ∧ v.toInt.toNat = k) := by
  have hv := v.isLt
  rw [BitVec.toInt_eq_toNat_cond]
  constructor
  · rintro rfl
    simp only [BitVec.toNat_ofNat]
    have : k % 2 ^ 32 = k := Nat.mod_eq_of_lt (by omega)
    rw [this]
    split <;> omega
  · rintro ⟨h0, h1, h2⟩
    apply BitVec.eq_of_toNat_eq
    rw [BitVec.toNat_ofNat, Nat.mod_eq_of_lt (by omega)]
    by_cases hc : 2 * v.toNat < 2 ^ 32
    · rw [if_pos hc] at h0 h1 h2; omega
    · rw [if_neg hc] at h0 h1 h2; omega

/-- Update `n` lands at bin `k` exactly when its start word is the number `k`. -/
theorem resultIdx_eq_some_iff (n : Fin 33554432) (idx : IVec S33554432x1 32) (k : Fin 600) :
    scatter_S600_S33554432x1_S33554432_n_0_0_1.resultIdx? (ix1 n) idx = some (ix1 k)
      ↔ idx (ix2 n (0 : Fin 1)) = BitVec.ofNat 32 k.val := by
  have hw := word_iff (idx (ix2 n (0 : Fin 1))) k.val k.isLt
  by_cases h : 0 ≤ (idx (ix2 n (0 : Fin 1))).toInt ∧ (idx (ix2 n (0 : Fin 1))).toInt < 600
  · rw [resultIdx_some n idx h.1 h.2, hw]
    constructor
    · intro he
      have := congrArg (fun j : S600.Idx => (j 0).val) (Option.some.inj he)
      exact ⟨h.1, h.2, this⟩
    · rintro ⟨_, _, h2⟩
      exact congrArg some (congrArg ix1 (Fin.ext h2))
  · rw [resultIdx_none n idx h]
    constructor
    · intro he; cases he
    · intro hk
      exact absurd ⟨(hw.1 hk).1, (hw.1 hk).2.1⟩ h

/-- Two numbers below 600 that are the same word are the same number. -/
theorem ofNat_inj_of_lt (k k' : Nat) (hk : k < 600) (hk' : k' < 600) (h : BitVec.ofNat 32 k = BitVec.ofNat 32 k') :
    k = k' := by
  have h1 := (word_iff (BitVec.ofNat 32 k) k hk).1 rfl
  have h2 := (word_iff (BitVec.ofNat 32 k) k' hk').1 h
  omega

/-- A left fold whose step, read at `b`, adds `g n`: read at `b`, the fold over ANY list adds the list's sum. -/
theorem foldl_apply_add {ι β : Type} (step : (β → BitVec 32) → ι → β → BitVec 32) (g : ι → BitVec 32) (b : β)
    (hstep : ∀ r n, step r n b = r b + g n) (L : List ι) (r0 : β → BitVec 32) :
    (L.foldl step r0) b = r0 b + (L.map g).sum := by
  induction L generalizing r0 with
  | nil => simp
  | cons n L ih => rw [List.foldl_cons, ih, hstep, List.map_cons, List.sum_cons, add_assoc]

/-- A sum over the rank-1 index set is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The scatter stage of the reference, as a function of the argument array, is the histogram. -/
theorem val_eq (x0 : (⟨S33554432, .i32⟩ : BufTy).Contents (Elt Ideal)) :
    Cert.ReferenceIdeal.Read.val_main_v3 (F := Ideal) x0 = hist x0 := by
  funext b
  obtain ⟨k, rfl⟩ : ∃ k : Fin 600, b = ix1 k := ⟨_, eq_ix1 _⟩
  unfold Cert.ReferenceIdeal.Read.val_main_v3 Host.scatter
  generalize hL : List.finRange S33554432.numel = L
  refine (foldl_apply_add _ (fun n => hit (x0 (S33554432.rowMajor.symm n)) k.val) (ix1 k) ?_ L _).trans ?_
  · intro r n
    obtain ⟨m, hm⟩ : ∃ m : Fin 33554432, S33554432.rowMajor.symm n = ix1 m := ⟨_, eq_ix1 _⟩
    rw [hm]
    have hidx : Cert.ReferenceIdeal.Read.val_main_v2 (F := Ideal) x0 (ix2 m (0 : Fin 1)) = x0 (ix1 m) := by
      rw [Cert.ReferenceIdeal.Read.val_main_v2_apply]
      exact congrArg x0 (funext fun a => by match a with | ⟨0, _⟩ => rfl)
    have hupd : Cert.ReferenceIdeal.Read.val_main_v0 (F := Ideal) (ix1 m) = 1#32 := by
      rw [Cert.ReferenceIdeal.Read.val_main_v0_apply]; rfl
    have hiff := fun k' => resultIdx_eq_some_iff m (Cert.ReferenceIdeal.Read.val_main_v2 (F := Ideal) x0) k'
    simp only [hidx] at hiff
    unfold hit
    generalize heq : scatter_S600_S33554432x1_S33554432_n_0_0_1.resultIdx? (ix1 m)
      (Cert.ReferenceIdeal.Read.val_main_v2 (F := Ideal) x0) = o at hiff
    cases o with
    | some i =>
      obtain ⟨k', rfl⟩ : ∃ k' : Fin 600, i = ix1 k' := ⟨_, eq_ix1 _⟩
      have hx := (hiff k').1 rfl
      show (if ix1 k = ix1 k' then IntOp.addi (r (ix1 k')) _ else r (ix1 k)) = _
      by_cases hkk : k = k'
      · subst hkk
        rw [if_pos rfl, if_pos hx, hupd]; rfl
      · rw [if_neg, if_neg, add_zero]
        · intro hx'
          exact hkk (Fin.ext (ofNat_inj_of_lt _ _ k.isLt k'.isLt (hx'.symm.trans hx)))
        · intro he
          exact hkk (Fin.ext (congrArg (fun j : S600.Idx => (j 0).val) he))
    | none =>
      show r (ix1 k) = _
      rw [if_neg, add_zero]
      intro hx
      have := (hiff k).2 hx
      cases this
  · subst hL
    rw [Cert.ReferenceIdeal.Read.val_main_v1_apply, Cert.ReferenceIdeal.Read.val_main_c_0_apply]
    rw [← Fin.sum_univ_def, Equiv.sum_comp S33554432.rowMajor.symm (fun j => hit (x0 j) k.val), sum_idx1]
    rw [show (0#32 : BitVec 32) = 0 from rfl, zero_add]
    rfl

end Cert.Hist.Ref

end
-- ==== Proof.lean ====
/-
  The certificate of the histogram kernel against `segment_sum` of ones.

  The argument is a vector `x` of 2^25 32-bit words; the result has 600 bins. Both programs end with bin `b` at
  the number of positions `n` with `x n = b`, as a 32-bit word (`Cert.Hist.hist`, Proof/Spec.lean); a word outside
  `[0, 600)`, read signed, is counted nowhere by either. No property of the input is used.

  The kernel splits each word into a high part `x >> 7` and a low part `x & 127`, and for each 512 × 128 tile
  forms the 8 × 128 table of counts of (high, low) pairs as a product of two one-hot matrices; a count is at most
  65536, so its conversion from a real to a word is exact (Proof/Tile.lean). The tables of the 256 tiles of each
  half of the input are added up in one output block, reset at the half's first tile and written back after its
  last (Proof/KernelValue.lean: the running sum by induction on the grid point), and the host adds the two halves,
  lays the 8 × 128 table out as 1024 bins and keeps the first 600. The positions are the triples (tile, row, lane),
  so these sums are the histogram (Proof/Split.lean).

  The reference scatters a one to bin `x n` for every position in order, dropping the positions whose word is
  outside the bins: the same count (Proof/RefValue.lean).

  The three frames are the generated ones (the reference's is its generated run with the result dropped), and the
  idealization rewrote nothing, so `preserves` is `True`.
-/
import proofs.«400439_j38474317038177_2_alg».proof.Defs
import proofs.«400439_j38474317038177_2_alg».proof.Proof.Gen.Kernel
import proofs.«400439_j38474317038177_2_alg».proof.Proof.Gen.Kernel.Skeleton
import proofs.«400439_j38474317038177_2_alg».proof.Proof.Gen.Kernel.Launch
import proofs.«400439_j38474317038177_2_alg».proof.Proof.Gen.Kernel.Points
import proofs.«400439_j38474317038177_2_alg».proof.Proof.Gen.Kernel.Frame
import proofs.«400439_j38474317038177_2_alg».proof.Proof.Gen.KernelIdeal
import proofs.«400439_j38474317038177_2_alg».proof.Proof.Gen.KernelIdeal.Skeleton
import proofs.«400439_j38474317038177_2_alg».proof.Proof.Gen.KernelIdeal.Launch
import proofs.«400439_j38474317038177_2_alg».proof.Proof.Gen.KernelIdeal.Points
import proofs.«400439_j38474317038177_2_alg».proof.Proof.Gen.KernelIdeal.Frame
import proofs.«400439_j38474317038177_2_alg».proof.Proof.Gen.ReferenceIdeal
import proofs.«400439_j38474317038177_2_alg».proof.Proof.Gen.ReferenceIdeal.Run
import proofs.«400439_j38474317038177_2_alg».proof.Proof.Gen.ReferenceIdeal.Read
import proofs.«400439_j38474317038177_2_alg».proof.Proof.Gen.Pre_any_inputs
import proofs.«400439_j38474317038177_2_alg».proof.Proof.KernelValue
import proofs.«400439_j38474317038177_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the histogram of the (shared) argument. -/
theorem algebraic : Cert.algebraic_KernelIdeal_ReferenceIdeal := by
  intro m ρ m' ρ' _ hagree
  refine ⟨fun c => Cert.Hist.hist (m ((c.tc : Thread Cert.KernelIdeal.nD Cert.KernelIdeal.τ).loc Cert.KernelIdeal.main_arg0)),
    Cert.KernelIdeal.HistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Hist.Ref.val_eq, hagree c]

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
